-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000 .f32) (main_arg2 : IVec S600000 32) (main_arg3 : IVec S600000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩

abbrev nBuf : Space → Nat
  | .hbm => 29
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x1, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x1, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S50000x128, .f32⟩
  | .hbm, ⟨25, _⟩ => ⟨S128x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S_, .f32⟩
  | .hbm, ⟨32, _⟩ => ⟨S50000x128, .f32⟩
  | .hbm, ⟨33, _⟩ => ⟨S50000x128, .i1⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S_, .f32⟩
  | .hbm, ⟨46, _⟩ => ⟨S50000x128, .f32⟩
  | .hbm, ⟨47, _⟩ => ⟨S50000x128, .i1⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.BiSpec.lean ====
/-
  What both programs compute, one entry at a time, over the extended reals.

  For node features `ent` and aggregated neighbour features `nh` (m rows of 128 entries), two weight matrices
  `A1`, `A2` ALREADY TRANSPOSED (entry (c, q) multiplies feature c into output column q) and two bias vectors:

      out (r, q) = leaky (∑ c, (ent (r, c) + nh (r, c)) · A1 (c, q) + b1 q)
                 + leaky (∑ c, (ent (r, c) · nh (r, c)) · A2 (c, q) + b2 q)

  with `leaky` the rectifier of slope f32(0.01) below zero. Row r of the result depends on row r of `ent` and of
  `nh` only (`biOut_congr`): that is why a kernel may compute it 2000 rows at a time, and why the number of rows
  `m` is a parameter here — the same definition is read at a block of 2000 rows and at the whole array of 50000.
-/
import proofs.«405159_j67577015436449_3_alg».proof.Proof.LibPlainRows

noncomputable section

namespace Cert.BiInteraction

open Idealize.ShloMosaic Idealize.ShloMosaic.ValueIdx Idealize.ShloMosaic.PlainRows

/-- The rectifier's slope: the f32 word nearest 0.01, which both programs print. -/
abbrev slope : EReal := Ideal.ofBits .f32 0x3C23D70A#32

/-- One branch before the rectifier: row `r` of `X` against column `q` of the transposed weight, plus the bias. -/
def affine {m : Nat} (X : (⟨2, ![m, 128]⟩ : Shape).Idx → EReal) (A : (⟨2, ![128, 128]⟩ : Shape).Idx → EReal)
    (b : (⟨1, ![128]⟩ : Shape).Idx → EReal) (r : Fin m) (q : Fin 128) : EReal :=
  (∑ c : Fin 128, X (ix2 r c) * A (ix2 c q)) + b (ix1 q)

/-- The bi-interaction output: the rectified sum branch plus the rectified product branch. -/
def biOut {m : Nat} (ent nh : (⟨2, ![m, 128]⟩ : Shape).Idx → EReal) (A1 A2 : (⟨2, ![128, 128]⟩ : Shape).Idx → EReal)
    (b1 b2 : (⟨1, ![128]⟩ : Shape).Idx → EReal) : (⟨2, ![m, 128]⟩ : Shape).Idx → EReal := fun i =>
  leaky slope (affine (fun j => ent j + nh j) A1 b1 (i 0) (i 1))
    + leaky slope (affine (fun j => ent j * nh j) A2 b2 (i 0) (i 1))

/-- An entry of the output reads one row of the features, one column of each weight and one entry of each bias:
    two instances that agree on those agree at the entry, whatever their numbers of rows. -/
theorem biOut_congr {m m' : Nat} (ent nh : (⟨2, ![m, 128]⟩ : Shape).Idx → EReal)
    (ent' nh' : (⟨2, ![m', 128]⟩ : Shape).Idx → EReal) (A1 A2 A1' A2' : (⟨2, ![128, 128]⟩ : Shape).Idx → EReal)
    (b1 b2 b1' b2' : (⟨1, ![128]⟩ : Shape).Idx → EReal)
    (i : (⟨2, ![m, 128]⟩ : Shape).Idx) (i' : (⟨2, ![m', 128]⟩ : Shape).Idx)
    (he : ∀ c : Fin 128, ent (ix2 (i 0) c) = ent' (ix2 (i' 0) c))
    (hn : ∀ c : Fin 128, nh (ix2 (i 0) c) = nh' (ix2 (i' 0) c))
    (hA1 : ∀ c : Fin 128, A1 (ix2 c (i 1)) = A1' (ix2 c (i' 1)))
    (hA2 : ∀ c : Fin 128, A2 (ix2 c (i 1)) = A2' (ix2 c (i' 1)))
    (hb1 : b1 (ix1 (i 1)) = b1' (ix1 (i' 1))) (hb2 : b2 (ix1 (i 1)) = b2' (ix1 (i' 1))) :
    biOut ent nh A1 A2 b1 b2 i = biOut ent' nh' A1' A2' b1' b2' i' := by
  unfold biOut affine
  simp only [he, hn, hA1, hA2, hb1, hb2]

end Cert.BiInteraction

end
-- ==== Proof.KernelBlocks.lean ====
/-
  The kernel's result array, read off its run block by block.

  The kernel visits 25 grid points; at point t it loads rows 2000·t … 2000·t + 1999 of the node features and of the
  aggregated neighbour features, the two (transposed, re-formatted) weight matrices and the two biases whole, and
  stores `biOut` of those blocks (`pay_eq`: the body's arithmetic is `biOut` at 2000 rows; a change of float
  format is the identity at the ideal values, and a product accumulated into zero is the plain sum of products).
  Because an entry of `biOut` reads one row of the features only (`biOut_congr`), the block that point t writes
  back is rows 2000·t … of `biOut` of the WHOLE arrays (`flushed_eq`); the 25 blocks tile the 50000 rows
  (`cover`), so the result array ends holding `biOut` of the arrays as the kernel's launch finds them (`final`).
  Those arrays are the arguments themselves (features, biases) or what the host operations before the launch
  computed from them: the segment sums (`V_nh`) and the two transposed weights (`V_w1`, `V_w2`).
-/
import proofs.«405159_j67577015436449_3_alg».proof.Proof.Gen.KernelIdeal.Value
import proofs.«405159_j67577015436449_3_alg».proof.Proof.BiSpec
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value
open Idealize.ShloMosaic.ValueIdx Idealize.ShloMosaic.PlainRows Cert.BiInteraction

variable (m : (ℓ : Loc nD τ sig) → Buf (Elt Ideal) ℓ) (ρ : Dev nD → PrngReg)

/-! ## The body's arithmetic -/

/-- The body's one stored value is `biOut` of its six loaded blocks: the sum branch and the product branch, each a
    product with a weight block into a zero accumulator, plus the bias laid along the rows, rectified with the
    strict test. -/
theorem pay_eq (x0 x1 : Vec Ideal S2000x128 .f32) (x2 x3 : Vec Ideal S128x128 .bf16) (x4 x5 : Vec Ideal S128 .f32) :
    k0_pay1 (F := Ideal) x0 x1 x2 x4 x3 x5 = biOut x0 x1 x2 x3 x4 x5 := by
  funext y
  obtain ⟨p, q, rfl⟩ : ∃ (p : Fin 2000) (q : Fin 128), y = ix2 p q := ⟨y 0, y 1, eq_ix2 y⟩
  unfold k0_pay1
  simp only [shapeCast_self, addf_apply, select_apply, cmpf_apply, mulf_apply, broadcast_apply]
  rw [matmul_zero_rows_apply dot_S2000x128_S128x128_S2000x128_1_0_0_1_n_n rfl,
    matmul_zero_rows_apply dot_S2000x128_S128x128_S2000x128_1_0_0_1_n_n rfl,
    rowCast_broadcast_apply, rowCast_broadcast_apply]
  simp only [truncf_apply, addf_apply, mulf_apply]
  rw [select_ogt_leaky, select_ogt_leaky]
  rfl

/-! ## The arrays the launch finds -/

/-- The segment sums as the host computes them from the four edge-side arguments: the source rows gathered (a
    negative index wrapped once by the row count), each scaled by its edge's attention, added into the row its
    destination index names, from zero. The reference computes the same term; it is never opened. -/
def segSum (ent : FVec Ideal S50000x128 .f32) (att : FVec Ideal S600000 .f32) (src dst : IVec S600000 32) :
    FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf
      (Host.gather gather_S50000x128_S600000x1_S600000x128_1_0_n_n_0_1_1128 ent
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      (broadcastInDim S600000x128 ![0, 1] bcast_S600000x1_S600000x128_0_1
        (broadcastInDim S600000x1 ![0] bcast_S600000_S600000x1_0 att)))

/-- Window 1's array, as the launch finds it, is the segment sums of the arguments. -/
theorem V_nh (c : Dev nD) : (V m c main_v12 : S50000x128.Idx → EReal)
    = segSum (m ((c : Thread nD τ).loc main_arg0)) (m ((c : Thread nD τ).loc main_arg1))
        (m ((c : Thread nD τ).loc main_arg2)) (m ((c : Thread nD τ).loc main_arg3)) := by
  dsimp only [Gen.V, Gen.hostOps0]; after_results; rfl

/-- Window 2's array is the first weight transposed (its change of float format is the identity here). -/
theorem V_w1 (c : Dev nD) : (V m c main_v14 : S128x128.Idx → EReal)
    = transpose S128x128 [1, 0] (m ((c : Thread nD τ).loc main_arg4) : S128x128.Idx → EReal) transposes_S128x128_S128x128_1_0 := by
  dsimp only [Gen.V, Gen.hostOps0]; after_results; rfl

/-- Window 3's array is the second weight transposed. -/
theorem V_w2 (c : Dev nD) : (V m c main_v16 : S128x128.Idx → EReal)
    = transpose S128x128 [1, 0] (m ((c : Thread nD τ).loc main_arg6) : S128x128.Idx → EReal) transposes_S128x128_S128x128_1_0 := by
  dsimp only [Gen.V, Gen.hostOps0]; after_results; rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- What the result array ends holding: `biOut` of the six arrays the launch stages, as it finds them. -/
abbrev G (c : Dev nD) : S50000x128.Idx → EReal :=
  biOut (V m c main_arg0) (V m c main_v12) (V m c main_v14) (V m c main_v16) (V m c main_arg5) (V m c main_arg7)

/-- The printed index maps, decided over the 25 points: the two feature windows and the result window are at row
    block t, column block 0; the weights and the biases are at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-- WHAT POINT t WRITES BACK is block t of `G`: the body stores `biOut` of its blocks, and entry (p, q) of that reads
    row p of the feature blocks — row 2000·t + p of the arrays —, column q of the weights and entry q of the biases,
    exactly what entry (2000·t + p, q) of `G` reads. -/
theorem flushed_eq (c : Dev nD) (t : Fin cfg0.N) :
    (dats m 0 c).flushed 6 t = ((cfg0.win 6).blk t).view.read (Elt Ideal) (G m c) := by
  rw [flushed6]
  unfold out0_6
  rw [View.canon_unit_zero hz2]
  simp only [View.ld_unit_zero (S := S2000x128) hz2, View.ld_unit_zero (S := S128x128) hz2, View.ld_unit_zero (S := S128) hz1]
  rw [pay_eq]
  obtain ⟨e00, e01, e10, e11, e20, e21, e30, e31, e40, e50, e60, e61⟩ := idx_facts t
  funext j
  show biOut (iblk m c 0 t) (iblk m c 1 t) (iblk m c 2 t) (iblk m c 3 t) (iblk m c 4 t) (iblk m c 5 t) j
    = G m c (((cfg0.win 6).blk t).view.emb j)
  have hj0 : (j 0).val < 2000 := (j 0).isLt
  have hj1 : (j 1).val < 128 := (j 1).isLt
  refine biOut_congr _ _ _ _ _ _ _ _ _ _ _ _ j _ ?_ ?_ ?_ ?_ ?_ ?_
  · intro k
    show V m c main_arg0 (((cfg0.win 0).blk t).view.emb (ix2 (j 0) k)) = V m c main_arg0 (ix2 ((((cfg0.win 6).blk t).view.emb j) 0) k)
    refine congrArg (V m c main_arg0) (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * k.val = k.val; omega
  · intro k
    show V m c main_v12 (((cfg0.win 1).blk t).view.emb (ix2 (j 0) k)) = V m c main_v12 (ix2 ((((cfg0.win 6).blk t).view.emb j) 0) k)
    refine congrArg (V m c main_v12) (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 128 + 1 * k.val = k.val; omega
  · intro k
    show V m c main_v14 (((cfg0.win 2).blk t).view.emb (ix2 k (j 1))) = V m c main_v14 (ix2 k ((((cfg0.win 6).blk t).view.emb j) 1))
    refine congrArg (V m c main_v14) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_6.index t (1 : Fin 2) * 128 + 1 * (j 1).val; omega
  · intro k
    show V m c main_v16 (((cfg0.win 3).blk t).view.emb (ix2 k (j 1))) = V m c main_v16 (ix2 k ((((cfg0.win 6).blk t).view.emb j) 1))
    refine congrArg (V m c main_v16) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · show V m c main_arg5 (((cfg0.win 4).blk t).view.emb (ix1 (j 1))) = V m c main_arg5 (ix1 ((((cfg0.win 6).blk t).view.emb j) 1))
    refine congrArg (V m c main_arg5) (funext fun a => Fin.ext ?_)
    match a with
    | ⟨0, _⟩ => show win0_4.index t (0 : Fin 1) * 128 + 1 * (j 1).val = win0_6.index t (1 : Fin 2) * 128 + 1 * (j 1).val; omega
  · show V m c main_arg7 (((cfg0.win 5).blk t).view.emb (ix1 (j 1))) = V m c main_arg7 (ix1 ((((cfg0.win 6).blk t).view.emb j) 1))
    refine congrArg (V m c main_arg7) (funext fun a => Fin.ext ?_)
    match a with
    | ⟨0, _⟩ => show win0_5.index t (0 : Fin 1) * 128 + 1 * (j 1).val = win0_6.index t (1 : Fin 2) * 128 + 1 * (j 1).val; omega

/-- An index of the array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v17).slice (win0_6.rect t)).set ↔ _
  rw [View.set_slice_whole, Rect.mem_set_unit]
  exact Iff.rfl

/-- The 25 blocks of 2000 rows tile the 50000 rows: row r is in the block of point r / 2000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, -, -, e60, e61⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the run is `G`. -/
theorem final (c : Dev nD) : (dats m 0 c).arrAt 6 cfg0.N = G m c :=
  (dats m 0 c).arrAt_eq_of_cover 6 (G m c) (fun t _ => flushed_eq m c t) cover

/-- The result as a function of the ARGUMENTS: the features and biases as launched, the segment sums and the two
    transposed weights as the host computed them. -/
abbrev result (c : Dev nD) : S50000x128.Idx → EReal :=
  biOut (m ((c : Thread nD τ).loc main_arg0) : S50000x128.Idx → EReal)
    (segSum (m ((c : Thread nD τ).loc main_arg0)) (m ((c : Thread nD τ).loc main_arg1))
      (m ((c : Thread nD τ).loc main_arg2)) (m ((c : Thread nD τ).loc main_arg3)))
    (transpose S128x128 [1, 0] (m ((c : Thread nD τ).loc main_arg4) : S128x128.Idx → EReal) transposes_S128x128_S128x128_1_0)
    (transpose S128x128 [1, 0] (m ((c : Thread nD τ).loc main_arg6) : S128x128.Idx → EReal) transposes_S128x128_S128x128_1_0)
    (m ((c : Thread nD τ).loc main_arg5) : S128.Idx → EReal) (m ((c : Thread nD τ).loc main_arg7) : S128.Idx → EReal)

theorem G_eq (c : Dev nD) : G m c = result m c := by
  unfold G result
  rw [V_nh, V_w1, V_w2, V_main_arg0, V_main_arg5, V_main_arg7]

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩)
    (Value.run_blocks m ρ)

end Cert.KernelIdeal.Blocks

end
-- ==== Proof.RefRun.lean ====
/-
  The reference's run, read back.

  The reference program is a straight line of host operations: the segment sums (sixteen operations, the same
  as the kernel's program runs before its launch), then for each of the two branches a combination of the features with the
  sums, the weight transposed, their product, the bias laid along the rows, and the leaky rectifier — which the
  program calls as a function of seven operations (a zero and its splat, the test `h ≥ 0`, the slope converted to
  its own type and its splat, the product slope · h, the select) —, and last the sum of the two branches.
  Listed in order with the two calls' operations in place (`ops`), @main is that list run in sequence
  (`main_eq`), so every weakly fair execution ends with the result at the operations' composed term of the
  arguments, `refOut`, and the arguments unchanged (`run`).
-/
import proofs.«405159_j67577015436449_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's forty-five operations in order, the two rectifier calls unfolded into their callers' buffers. -/
abbrev ops : List (HloOp τ sig (Elt F)) :=
  [ nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg2 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v2 (broadcastInDim S600000 ![] bcast_S_S600000 : (⟨S_, .i32⟩ : BufTy).Contents (Elt F) → (⟨S600000, .i32⟩ : BufTy).Contents (Elt F)),
    binary main_arg2 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg2 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg1 main_v7 (broadcastInDim S600000x1 ![0] bcast_S600000_S600000x1_0 : (⟨S600000, .f32⟩ : BufTy).Contents (Elt F) → (⟨S600000x1, .f32⟩ : BufTy).Contents (Elt F)),
    unary main_v7 main_v8 (broadcastInDim S600000x128 ![0, 1] bcast_S600000x1_S600000x128_0_1 : (⟨S600000x1, .f32⟩ : BufTy).Contents (Elt F) → (⟨S600000x128, .f32⟩ : BufTy).Contents (Elt F)),
    binary main_v6 main_v8 main_v9 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v10 (broadcastInDim S50000x128 ![] bcast_S_S50000x128 : (⟨S_, .f32⟩ : BufTy).Contents (Elt F) → (⟨S50000x128, .f32⟩ : BufTy).Contents (Elt F)),
    unary main_arg3 main_v11 (broadcastInDim S600000x1 ![0] bcast_S600000_S600000x1_0 : (⟨S600000, .i32⟩ : BufTy).Contents (Elt F) → (⟨S600000x1, .i32⟩ : BufTy).Contents (Elt F)),
    ternary main_v10 main_v11 main_v9 main_v12 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v12 main_v13 (addf : (⟨S50000x128, .f32⟩ : BufTy).Contents (Elt F) → (⟨S50000x128, .f32⟩ : BufTy).Contents (Elt F) → (⟨S50000x128, .f32⟩ : BufTy).Contents (Elt F)),
    unary main_arg4 main_v14 ((transpose S128x128 [1, 0] · transposes_S128x128_S128x128_1_0) : (⟨S128x128, .f32⟩ : BufTy).Contents (Elt F) → (⟨S128x128, .f32⟩ : BufTy).Contents (Elt F)),
    binary main_v13 main_v14 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v16 (broadcastInDim S1x128 ![1] bcast_S128_S1x128_1 : (⟨S128, .f32⟩ : BufTy).Contents (Elt F) → (⟨S1x128, .f32⟩ : BufTy).Contents (Elt F)),
    unary main_v16 main_v17 (broadcastInDim S50000x128 ![0, 1] bcast_S1x128_S50000x128_0_1 : (⟨S1x128, .f32⟩ : BufTy).Contents (Elt F) → (⟨S50000x128, .f32⟩ : BufTy).Contents (Elt F)),
    binary main_v15 main_v17 main_v18 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x128 ![] bcast_S_S50000x128),
    TRef.binary (.of main_v18) main_call0.v0 main_call0.v1 (cmpf .oge),
    TRef.unary (.of main_cst_1) main_call0.v2 id,
    TRef.unary main_call0.v2 main_call0.v3 (broadcastInDim S50000x128 ![] bcast_S_S50000x128),
    TRef.binary main_call0.v3 (.of main_v18) main_call0.v4 mulf,
    TRef.ternary main_call0.v1 (.of main_v18) main_call0.v4 main_call0.call0.v0 select,
    binary main_arg0 main_v12 main_v20 (mulf : (⟨S50000x128, .f32⟩ : BufTy).Contents (Elt F) → (⟨S50000x128, .f32⟩ : BufTy).Contents (Elt F) → (⟨S50000x128, .f32⟩ : BufTy).Contents (Elt F)),
    unary main_arg6 main_v21 ((transpose S128x128 [1, 0] · transposes_S128x128_S128x128_1_0) : (⟨S128x128, .f32⟩ : BufTy).Contents (Elt F) → (⟨S128x128, .f32⟩ : BufTy).Contents (Elt F)),
    binary main_v20 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3C23D70A#32),
    TRef.nullary main_call1.cst (constant S_ .f32 0x00000000#32),
    TRef.unary main_call1.cst main_call1.v0 (broadcastInDim S50000x128 ![] bcast_S_S50000x128),
    TRef.binary (.of main_v25) main_call1.v0 main_call1.v1 (cmpf .oge),
    TRef.unary (.of main_cst_2) main_call1.v2 id,
    TRef.unary main_call1.v2 main_call1.v3 (broadcastInDim S50000x128 ![] bcast_S_S50000x128),
    TRef.binary main_call1.v3 (.of main_v25) main_call1.v4 mulf,
    TRef.ternary main_call1.v1 (.of main_v25) main_call1.v4 main_call1.call0.v0 select,
    binary main_v19 main_v26 main_v27 (addf : (⟨S50000x128, .f32⟩ : BufTy).Contents (Elt F) → (⟨S50000x128, .f32⟩ : BufTy).Contents (Elt F) → (⟨S50000x128, .f32⟩ : BufTy).Contents (Elt F)) ]

-- forty-five binds re-associated: the rewriting under the chain recurses once per statement
set_option maxRecDepth 2048 in
/-- @main is that straight line: the two functions' definitions unfolded at their calls and the buffer records at
    their fields, both sides are one chain of host steps once the sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., binary_bufs_sub .., unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..,
    binary_bufs_sub ..⟩

/-- Every weakly fair execution of @main terminates, and every final state has each buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result's term -/

/-- The segment sums: the source rows gathered (a negative index wrapped once by the row count), each scaled by
    its edge's attention, added into the row its destination index names, from zero. -/
def segSum (ent : FVec F S50000x128 .f32) (att : FVec F S600000 .f32) (src dst : IVec S600000 32) :
    FVec F S50000x128 .f32 :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0 dst)
    (mulf
      (Host.gather gather_S50000x128_S600000x1_S600000x128_1_0_n_n_0_1_1128 ent
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      (broadcastInDim S600000x128 ![0, 1] bcast_S600000x1_S600000x128_0_1
        (broadcastInDim S600000x1 ![0] bcast_S600000_S600000x1_0 att)))

/-- One branch before the rectifier: the combined features times the weight transposed, plus the bias along the rows. -/
def pre (x : FVec F S50000x128 .f32) (W : FVec F S128x128 .f32) (b : FVec F S128 .f32) : FVec F S50000x128 .f32 :=
  addf (Host.dotGeneral dot_S50000x128_S128x128_S50000x128_1_0_0_1_n_n none x (transpose S128x128 [1, 0] W transposes_S128x128_S128x128_1_0))
    (broadcastInDim S50000x128 ![0, 1] bcast_S1x128_S50000x128_0_1 (broadcastInDim S1x128 ![1] bcast_S128_S1x128_1 b))

/-- The rectifier as the program's function writes it: `h` where `h ≥ 0`, the slope's splat times `h` elsewhere. -/
def rect (h : FVec F S50000x128 .f32) : FVec F S50000x128 .f32 :=
  select (cmpf .oge h (broadcastInDim S50000x128 ![] bcast_S_S50000x128 (constant (F := F) S_ .f32 0x00000000#32))) h
    (mulf (broadcastInDim S50000x128 ![] bcast_S_S50000x128 (id (constant (F := F) S_ .f32 0x3C23D70A#32))) h)

/-- The operations' composed term: the two rectified branches added. -/
def refOut (a0 : FVec F S50000x128 .f32) (a1 : FVec F S600000 .f32) (a2 a3 : IVec S600000 32)
    (a4 : FVec F S128x128 .f32) (a5 : FVec F S128 .f32) (a6 : FVec F S128x128 .f32) (a7 : FVec F S128 .f32) :
    FVec F S50000x128 .f32 :=
  addf (rect (pre (addf a0 (segSum a0 a1 a2 a3)) a4 a5)) (rect (pre (mulf a0 (segSum a0 a1 a2 a3)) a6 a7))

attribute [local irreducible] Host.gather Host.scatterAdd in
set_option maxRecDepth 8192 in
set_option maxHeartbeats 1000000 in
/-- The fold at the result buffer is `refOut` of the argument buffers' contents: each operation's result read at its
    own buffer, at any other buffer what was there. -/
theorem out_eq (V : Valuation τ sig (Elt F)) :
    after ops V (main_v27 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

theorem arg0_eq (V : Valuation τ sig (Elt F)) : after ops V (main_arg0 : DevRef τ sig) = V (main_arg0 : DevRef τ sig) := by
  simp only [after_cons, after_nil]; rfl
theorem arg1_eq (V : Valuation τ sig (Elt F)) : after ops V (main_arg1 : DevRef τ sig) = V (main_arg1 : DevRef τ sig) := by
  simp only [after_cons, after_nil]; rfl
theorem arg2_eq (V : Valuation τ sig (Elt F)) : after ops V (main_arg2 : DevRef τ sig) = V (main_arg2 : DevRef τ sig) := by
  simp only [after_cons, after_nil]; rfl
theorem arg3_eq (V : Valuation τ sig (Elt F)) : after ops V (main_arg3 : DevRef τ sig) = V (main_arg3 : DevRef τ sig) := by
  simp only [after_cons, after_nil]; rfl
theorem arg4_eq (V : Valuation τ sig (Elt F)) : after ops V (main_arg4 : DevRef τ sig) = V (main_arg4 : DevRef τ sig) := by
  simp only [after_cons, after_nil]; rfl
theorem arg5_eq (V : Valuation τ sig (Elt F)) : after ops V (main_arg5 : DevRef τ sig) = V (main_arg5 : DevRef τ sig) := by
  simp only [after_cons, after_nil]; rfl
theorem arg6_eq (V : Valuation τ sig (Elt F)) : after ops V (main_arg6 : DevRef τ sig) = V (main_arg6 : DevRef τ sig) := by
  simp only [after_cons, after_nil]; rfl
theorem arg7_eq (V : Valuation τ sig (Elt F)) : after ops V (main_arg7 : DevRef τ sig) = V (main_arg7 : DevRef τ sig) := by
  simp only [after_cons, after_nil]; rfl

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v27).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_all m ρ)

end Cert.ReferenceIdeal.HandRun

end
-- ==== Proof.RefValue.lean ====
/-
  The reference's term, read one entry at a time: it is `biOut`.

  Each branch of the reference is a host product of the combined features with the transposed weight, the bias
  laid along the rows, and the rectifier with the test `h ≥ 0`. At entry (r, q) the product is the sum over c of
  features (r, c) · weight (c, q), the bias is its entry q, the two splats are the zero and the slope, and the
  rectifier with `≥` has the value of the one with `>` (at `h = 0` the other branch is `slope · 0 = 0`): so the
  branch is `leaky slope (affine …)`, and the two branches added are `biOut` of the features, the segment sums,
  the two transposed weights and the two biases.
-/
import proofs.«405159_j67577015436449_3_alg».proof.Proof.RefRun
import proofs.«405159_j67577015436449_3_alg».proof.Proof.BiSpec

noncomputable section

namespace Cert.ReferenceIdeal.RefValue

open Cert.ReferenceIdeal Cert.ReferenceIdeal.Gen Cert.ReferenceIdeal.HandRun Idealize.ShloMosaic
open Idealize.ShloMosaic.ValueIdx Idealize.ShloMosaic.PlainRows Cert.BiInteraction

/-- One rectified branch at (r, q). -/
theorem rect_pre_apply (x : FVec Ideal S50000x128 .f32) (W : FVec Ideal S128x128 .f32) (b : FVec Ideal S128 .f32)
    (r : Fin 50000) (q : Fin 128) :
    rect (pre x W b) (ix2 r q)
      = leaky slope (affine x (transpose S128x128 [1, 0] W transposes_S128x128_S128x128_1_0) b r q) := by
  unfold rect pre
  simp only [select_apply, cmpf_apply, mulf_apply, addf_apply, id, broadcastInDim_constant, broadcast_apply]
  rw [dotGeneral_rows_apply dot_S50000x128_S128x128_S50000x128_1_0_0_1_n_n rfl, rowBroadcast_apply]
  rw [select_oge_leaky]
  rfl

/-- The reference's result is `biOut` of the features, the segment sums, the transposed weights and the biases. -/
theorem refOut_eq (a0 : FVec Ideal S50000x128 .f32) (a1 : FVec Ideal S600000 .f32) (a2 a3 : IVec S600000 32)
    (a4 : FVec Ideal S128x128 .f32) (a5 : FVec Ideal S128 .f32) (a6 : FVec Ideal S128x128 .f32) (a7 : FVec Ideal S128 .f32) :
    refOut a0 a1 a2 a3 a4 a5 a6 a7
      = biOut a0 (segSum a0 a1 a2 a3) (transpose S128x128 [1, 0] a4 transposes_S128x128_S128x128_1_0)
          (transpose S128x128 [1, 0] a6 transposes_S128x128_S128x128_1_0) a5 a7 := by
  funext i
  obtain ⟨r, q, rfl⟩ : ∃ (r : Fin 50000) (q : Fin 128), i = ix2 r q := ⟨i 0, i 1, eq_ix2 i⟩
  unfold refOut
  rw [addf_apply, rect_pre_apply, rect_pre_apply]
  rfl

end Cert.ReferenceIdeal.RefValue

end
-- ==== Proof.lean ====
/-
  The proof of `Cert.Claim`: the three frames, `preserves`, and the equality of the two idealized programs' results.

  Both programs compute, at entry (r, q) of a 50000 × 128 result,

      leaky (∑ c, (ent (r, c) + nh (r, c)) · W1ᵀ (c, q) + b1 q) + leaky (∑ c, (ent (r, c) · nh (r, c)) · W2ᵀ (c, q) + b2 q)

  where `nh` is the segment sum, over the edges into node r, of the source node's features scaled by the edge's
  attention, and `leaky` is the rectifier of slope f32(0.01) (Proof/BiSpec.lean: `biOut`).
  * The segment sums are computed by the SAME host operations in both programs (a gather, a scaling, a
    scatter-add); they are carried as one term and never opened.
  * The kernel takes the rows 2000 at a time: a block of the result reads the same rows of the features only, and
    the 25 blocks tile the rows (Proof/KernelBlocks.lean). Its products run in a narrower float format into a zero
    accumulator; at the ideal values a change of format is the identity and the accumulated product is the plain sum.
  * The reference is one straight line of host operations with the rectifier called as a function
    (Proof/RefRun.lean), read at an entry in Proof/RefValue.lean.
  * The kernel's rectifier tests `h > 0`, the reference's `h ≥ 0`: the two differ at `h = 0` only, where the other
    branch is `slope · 0 = 0` (Proof/LibPlainRows.lean). Sums over a finite index and products commute and associate
    on the extended reals without any finiteness, so the precondition is not used for the values.
  The ideal pass rewrote no operation, so `preserves` has nothing to state.
-/
import proofs.«405159_j67577015436449_3_alg».proof.Defs
import proofs.«405159_j67577015436449_3_alg».proof.Proof.Gen.Kernel
import proofs.«405159_j67577015436449_3_alg».proof.Proof.Gen.Kernel.Frame
import proofs.«405159_j67577015436449_3_alg».proof.Proof.Gen.KernelIdeal
import proofs.«405159_j67577015436449_3_alg».proof.Proof.Gen.KernelIdeal.Frame
import proofs.«405159_j67577015436449_3_alg».proof.Proof.Gen.ReferenceIdeal
import proofs.«405159_j67577015436449_3_alg».proof.Proof.Gen.Pre_finite_inputs
import proofs.«405159_j67577015436449_3_alg».proof.Proof.KernelBlocks
import proofs.«405159_j67577015436449_3_alg».proof.Proof.RefRun
import proofs.«405159_j67577015436449_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.HandRun.run (F := Ideal) m ρ)

/-- The segment sums are one term in both programs: the same operations over the same dimension records. -/
theorem segSum_eq (ent : FVec Ideal Cert.KernelIdeal.S50000x128 .f32) (att : FVec Ideal Cert.KernelIdeal.S600000 .f32)
    (src dst : IVec Cert.KernelIdeal.S600000 32) :
    Cert.ReferenceIdeal.HandRun.segSum (F := Ideal) ent att src dst = Cert.KernelIdeal.Blocks.segSum ent att src dst := rfl

/-- From memories that agree on the arguments both idealized programs end with the result at `biOut` of the
    arguments' features, segment sums, transposed weights and biases. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7⟩ := hagree c
  rw [h0, h1, h2, h3, h4, h5, h6, h7, Cert.ReferenceIdeal.RefValue.refOut_eq, segSum_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
